-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x8192 : Shape := ⟨2, ![8192, 8192]⟩
abbrev S8192 : Shape := ⟨1, ![8192]⟩
abbrev S1x8192 : Shape := ⟨2, ![1, 8192]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S1x8192 : S_.BroadcastsInDim S1x8192 (![] : Fin 0 → Fin S1x8192.rank)
  reducesTo_S1x8192_S_d0_1 : S1x8192.ReducesTo [0, 1] S_

variable [Facts]

def fn_part1 {F : FTy → Type} [FloatOps F] (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  main_v18

def fn {F : FTy → Type} [FloatOps F] (main_arg0 : FVec F S16x8192 .f32) (main_arg1 : IVec S8192x8192 32) (main_arg2 : FVec F S8192 .f32) (main_arg3 : FVec F S8192 .f32) (main_arg4 : FVec F S1x8192 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S1x8192 .f32 := Host.absf main_arg4
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_v13 main_v16
-- ==== Kernel.lean ====
abbrev S16x8192 : Shape := ⟨2, ![16, 8192]⟩
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩
abbrev S256x8192 : Shape := ⟨2, ![256, 8192]⟩
abbrev S256x1 : Shape := ⟨2, ![256, 1]⟩
abbrev S1x256 : Shape := ⟨2, ![1, 256]⟩
abbrev S16x256 : Shape := ⟨2, ![16, 256]⟩

abbrev nBuf : Space → Nat
  | .hbm => 8
  | .vmem => 11
  | .smem => 0
  | _ => 0

abbrev bufTy : (tb : Table) → Fin (tcTables nBuf tb) → BufTy
  | .hbm, ⟨0, _⟩ => ⟨S16x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S1x8192, .f32⟩
  | .hbm, ⟨5, _⟩ => ⟨S8192x1, .f32⟩
  | .hbm, ⟨6, _⟩ => ⟨S1x8192, .f32⟩
  | .hbm, ⟨7, _⟩ => ⟨S16x8192, .f32⟩
  | .local _ .vmem, ⟨0, _⟩ => ⟨S16x8192, .f32⟩
  | .local _ .vmem, ⟨1, _⟩ => ⟨S256x8192, .i32⟩
  | .local _ .vmem, ⟨2, _⟩ => ⟨S256x8192, .i32⟩
  | .local _ .vmem, ⟨3, _⟩ => ⟨S256x1, .f32⟩
  | .local _ .vmem, ⟨4, _⟩ => ⟨S256x1, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S16x256, .f32⟩
  | .local _ .vmem, ⟨10, _⟩ => ⟨S16x256, .f32⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8192_S8192x1 : S8192.ShapeCasts S8192x1
  shapeCasts_S8192_S1x8192 : S8192.ShapeCasts S1x8192
  inb_S16x8192_S16x8192_0_0 : ∀ a, (![0, 0] : Fin 2 → Nat) a + S16x8192.size a ≤ S16x8192.size a
  h_S16x8192 : 0 < S16x8192.numel
  bitsLt_bf16_f32 : FTy.bits .bf16 < FTy.bits .f32
  inb_S256x8192_S256x8192_0_0 : ∀ a, (![0, 0] : Fin 2 → Nat) a + S256x8192.size a ≤ S256x8192.size a
  h_S256x8192 : 0 < S256x8192.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x8192 : S256x1.Broadcasts S256x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x8192_S256x8192_S16x256_1_1_0_0_n_n_wf : DotDims.WF S16x8192 S256x8192 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .i32 = 32 ∨ (Rect.block (s := S8192x8192) S256x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x8192.size a
  hwx0_4 : ∀ i : grid0.Coords, EltTy.bits .f32 = 32 ∨ (Rect.block (s := S1x8192) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S16x8192.size a
  hwx0_5 : ∀ i : grid0.Coords, EltTy.bits .f32 = 32 ∨ (Rect.block (s := S16x8192) S16x256.size (cc0_transform_5 i) (hinb0_5 i)).WholeWords (EltTy.packing .f32)

variable [Facts₀]

def dot_S16x8192_S256x8192_S16x256_1_1_0_0_n_n : DotDims S16x8192 S256x8192 S16x256 where
  lhsContracting := [1]
  rhsContracting := [1]
  lhsNonContracting := [0]
  rhsNonContracting := [0]
  lhsBatch := []
  rhsBatch := []
  wf := dot_S16x8192_S256x8192_S16x256_1_1_0_0_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩

abbrev nBuf : Space → Nat
  | .hbm => 15
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S1x8192, .f32⟩
  | .hbm, ⟨5, _⟩ => ⟨S8192x8192, .f32⟩
  | .hbm, ⟨6, _⟩ => ⟨S8192x1, .f32⟩
  | .hbm, ⟨7, _⟩ => ⟨S8192x8192, .f32⟩
  | .hbm, ⟨8, _⟩ => ⟨S8192x8192, .f32⟩
  | .hbm, ⟨9, _⟩ => ⟨S16x8192, .f32⟩
  | .hbm, ⟨10, _⟩ => ⟨S1x8192, .f32⟩
  | .hbm, ⟨11, _⟩ => ⟨S16x8192, .f32⟩
  | .hbm, ⟨12, _⟩ => ⟨S16x8192, .f32⟩
  | .hbm, ⟨13, _⟩ => ⟨S16x8192, .f32⟩
  | .hbm, ⟨14, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S16x8192_0_1 : S1x8192.BroadcastsInDim S16x8192 (![0, 1] : Fin 2 → Fin S16x8192.rank)
  dot_S16x8192_S8192x8192_S16x8192_1_1_0_0_n_n_wf : DotDims.WF S16x8192 S8192x8192 S16x8192 [1] [1] [0] [0] [] []

variable [Facts₀]

def dot_S16x8192_S8192x8192_S16x8192_1_1_0_0_n_n : DotDims S16x8192 S8192x8192 S16x8192 where
  lhsContracting := [1]
  rhsContracting := [1]
  lhsNonContracting := [0]
  rhsNonContracting := [0]
  lhsBatch := []
  rhsBatch := []
  wf := dot_S16x8192_S8192x8192_S16x8192_1_1_0_0_n_n_wf

class Facts : Prop extends Facts₀ where

variable [Facts]
-- ==== Proof.QLinSpec.lean ====
/-
  The quantized linear layer as ONE function of its five argument arrays, over the extended reals.

  For a token row `p` (of 16) and an output channel `o` (of 8192):

      qlin x w scale zp bias (p, o)
        = (∑ k < 8192, x(p, k) · (float(w(o, k)) − zp(o))) · scale(o) + bias(0, o)

  — each integer weight made a real and shifted by its channel's zero point, the shifted row contracted with the token's
  activations, the sum scaled per channel and the one-row bias added. Both programs of this certificate compute exactly
  this expression, term for term and in this order of the factors, so no algebraic law of the extended reals (and hence
  no finiteness of the inputs) is needed to join them: only the bookkeeping of which array entry each operation reads.
-/
import Idealize.ShloMosaic.PureOps.Ideal
import Idealize.ShloMosaic.Lib.ValueIdx

noncomputable section

open scoped BigOperators

namespace Cert.QLin

open Idealize.ShloMosaic Idealize.ShloMosaic.ValueIdx

/-- Activations: 16 token rows of 8192 input features. -/
abbrev SAct : Shape := ⟨2, ![16, 8192]⟩
/-- Weights: 8192 output channels by 8192 input features. -/
abbrev SWgt : Shape := ⟨2, ![8192, 8192]⟩
/-- A per-channel vector. -/
abbrev SChan : Shape := ⟨1, ![8192]⟩
/-- The one-row bias. -/
abbrev SRow : Shape := ⟨2, ![1, 8192]⟩

/-- One dequantized weight: the integer read as a real, less its channel's zero point. -/
def deq (w : SWgt.Idx → BitVec 32) (zp : SChan.Idx → EReal) (o k : Fin 8192) : EReal :=
  FloatOps.sitofp (F := Ideal) .f32 (w (ix2 o k)) - zp (ix1 o)

/-- The layer's output at token row `p`, channel `o`. -/
def qlinAt (x : SAct.Idx → EReal) (w : SWgt.Idx → BitVec 32) (scale zp : SChan.Idx → EReal) (bias : SRow.Idx → EReal)
    (p : Fin 16) (o : Fin 8192) : EReal :=
  (∑ k : Fin 8192, x (ix2 p k) * deq w zp o k) * scale (ix1 o) + bias (ix2 (0 : Fin 1) o)

/-- The layer's whole output array. -/
def qlin (x : SAct.Idx → EReal) (w : SWgt.Idx → BitVec 32) (scale zp : SChan.Idx → EReal) (bias : SRow.Idx → EReal) :
    SAct.Idx → EReal :=
  fun i => qlinAt x w scale zp bias (i 0) (i 1)

theorem qlin_ix2 (x : SAct.Idx → EReal) (w : SWgt.Idx → BitVec 32) (scale zp : SChan.Idx → EReal) (bias : SRow.Idx → EReal)
    (p : Fin 16) (o : Fin 8192) : qlin x w scale zp bias (ix2 p o) = qlinAt x w scale zp bias p o := rfl

end Cert.QLin

end
-- ==== Proof.QLinRef.lean ====
/-
  The reference computes the layer function: its last stage, read at token row `p` and channel `o`, is

      (∑ k, x(p, k) · (float(w(o, k)) − zp(o))) · scale(o) + bias(0, o).

  Stage by stage: the integer weights are converted entry by entry; the zero point is broadcast first to a column
  [8192, 1] and then along each weight row, so entry (o, k) of the broadcast reads zp(o); the contraction pairs axis 1 of
  the activations with axis 1 of the shifted weights, so its (p, o) entry sums x(p, k) · shifted(o, k) over k; the scale is
  broadcast to one row and then down the 16 token rows, so entry (p, o) reads scale(o); the one-row bias is broadcast down
  the token rows, so entry (p, o) reads bias(0, o). Only index bookkeeping: no law of the extended reals is used.
-/
import proofs.«103418_j45329084842316_1_alg».proof.Proof.Gen.ReferenceIdeal.Read
import proofs.«103418_j45329084842316_1_alg».proof.Proof.QLinSpec

noncomputable section

open scoped BigOperators

namespace Cert.QLin.Ref

open Cert.ReferenceIdeal Cert.ReferenceIdeal.Gen Cert.ReferenceIdeal.Read Idealize.ShloMosaic Idealize.ShloMosaic.ValueIdx

/-- One shifted weight of the reference, entry (o, k): the converted integer less the channel's zero point. -/
theorem shifted_apply (x1 : (⟨S8192x8192, .i32⟩ : BufTy).Contents (Elt Ideal)) (x3 : (⟨S8192, .f32⟩ : BufTy).Contents (Elt Ideal))
    (o k : Fin 8192) : val_main_v3 (F := Ideal) x1 x3 (ix2 o k) = deq x1 x3 o k := by
  have e1 : idx_main_v1 (idx_main_v2 (ix2 o k)) = ix1 o := funext fun a => Fin.ext (by match a with | ⟨0, _⟩ => rfl)
  rw [val_main_v3_apply, val_main_v0_apply, val_main_v2_apply, val_main_v1_apply, e1]
  rfl

/-- The reference's result array is the layer function of its five arguments
    (activations, weights, scale, zero point, bias — in the order of @main's arguments). -/
theorem result_eq (x0 : (⟨S16x8192, .f32⟩ : BufTy).Contents (Elt Ideal)) (x1 : (⟨S8192x8192, .i32⟩ : BufTy).Contents (Elt Ideal))
    (x2 x3 : (⟨S8192, .f32⟩ : BufTy).Contents (Elt Ideal)) (x4 : (⟨S1x8192, .f32⟩ : BufTy).Contents (Elt Ideal)) :
    val_main_v9 (F := Ideal) x0 x1 x2 x3 x4 = qlin x0 x1 x2 x3 x4 := by
  funext i
  obtain ⟨p, o, rfl⟩ : ∃ (p : Fin 16) (o : Fin 8192), i = ix2 p o := ⟨i 0, i 1, eq_ix2 i⟩
  have e5 : idx_main_v5 (idx_main_v6 (ix2 p o)) = ix1 o := funext fun a => Fin.ext (by match a with | ⟨0, _⟩ => rfl)
  have e8 : idx_main_v8 (ix2 p o) = ix2 (0 : Fin 1) o :=
    funext fun a => Fin.ext (by match a with | ⟨0, _⟩ => rfl | ⟨1, _⟩ => rfl)
  have hsum : (∑ k : Fin 8192, x0 (lidx_main_v4 (ix2 p o) k) * val_main_v3 (F := Ideal) x1 x3 (ridx_main_v4 (ix2 p o) k))
      = ∑ k : Fin 8192, x0 (ix2 p k) * deq x1 x3 o k :=
    Finset.sum_congr rfl fun k _ => by
      have el : lidx_main_v4 (ix2 p o) k = ix2 p k :=
        funext fun a => Fin.ext (by match a with | ⟨0, _⟩ => rfl | ⟨1, _⟩ => rfl)
      have er : ridx_main_v4 (ix2 p o) k = ix2 o k :=
        funext fun a => Fin.ext (by match a with | ⟨0, _⟩ => rfl | ⟨1, _⟩ => rfl)
      rw [el, er, shifted_apply]
  rw [qlin_ix2, val_main_v9_apply, val_main_v7_apply, val_main_v4_apply, val_main_v6_apply, val_main_v5_apply,
    val_main_v8_apply, e5, e8, hsum]
  rfl

end Cert.QLin.Ref

end
-- ==== Proof.QLinBody.lean ====
/-
  One grid point's arithmetic, read at an entry. The body loads the whole activation block `a` [16, 8192], a block `wq` of
  256 weight rows [256, 8192], the matching 256 zero points as a column `z` [256, 1], and the matching 256 scales `s` and
  biases `b` as rows [1, 256]; it stores, at row `p` and column `q` of its [16, 256] result,

      (∑ k < 8192, a(p, k) · (float(wq(q, k)) − z(q, 0))) · s(0, q) + b(0, q).

  The narrowing of both matrix operands to a shorter float format is the identity on extended reals; the matrix product
  contracts axis 1 of the activations with axis 1 of the shifted weights into a zero accumulator, so it is the plain sum;
  the column of zero points is broadcast along each weight row and the two one-row operands down the 16 result rows.
-/
import proofs.«103418_j45329084842316_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.QLin.Body

open Cert.KernelIdeal Cert.KernelIdeal.Gen Idealize.ShloMosaic Idealize.ShloMosaic.ValueIdx

/-! ## The product's operand indices: output (p, q) and contraction position k read the activations at (p, k) and the
    shifted weights at (q, k) -/

theorem lhs_axis0 (i : S16x256.Idx) (c : dot_S16x8192_S256x8192_S16x256_1_1_0_0_n_n.contr.Idx) :
    (dot_S16x8192_S256x8192_S16x256_1_1_0_0_n_n.lhsIdx i c 0).val = (i 0).val := by
  unfold DotDims.lhsIdx
  rw [dif_neg (show ¬(0 : Fin S16x8192.rank) ∈ dot_S16x8192_S256x8192_S16x256_1_1_0_0_n_n.lhsBatch by decide), dif_pos (show (0 : Fin S16x8192.rank) ∈ dot_S16x8192_S256x8192_S16x256_1_1_0_0_n_n.lhsNonContracting by decide)]
  rfl
theorem lhs_axis1 (i : S16x256.Idx) (c : dot_S16x8192_S256x8192_S16x256_1_1_0_0_n_n.contr.Idx) :
    (dot_S16x8192_S256x8192_S16x256_1_1_0_0_n_n.lhsIdx i c 1).val = (c ⟨0, by decide⟩).val :=
  dot_S16x8192_S256x8192_S16x256_1_1_0_0_n_n.lhsIdx_val_of_single rfl i c
theorem rhs_axis0 (i : S16x256.Idx) (c : dot_S16x8192_S256x8192_S16x256_1_1_0_0_n_n.contr.Idx) :
    (dot_S16x8192_S256x8192_S16x256_1_1_0_0_n_n.rhsIdx i c 0).val = (i 1).val := by
  unfold DotDims.rhsIdx
  rw [dif_neg (show ¬(0 : Fin S256x8192.rank) ∈ dot_S16x8192_S256x8192_S16x256_1_1_0_0_n_n.rhsBatch by decide), dif_pos (show (0 : Fin S256x8192.rank) ∈ dot_S16x8192_S256x8192_S16x256_1_1_0_0_n_n.rhsNonContracting by decide)]
  rfl
theorem rhs_axis1 (i : S16x256.Idx) (c : dot_S16x8192_S256x8192_S16x256_1_1_0_0_n_n.contr.Idx) :
    (dot_S16x8192_S256x8192_S16x256_1_1_0_0_n_n.rhsIdx i c 1).val = (c ⟨0, by decide⟩).val :=
  dot_S16x8192_S256x8192_S16x256_1_1_0_0_n_n.rhsIdx_val_of_single rfl i c

/-- The block product into the zero accumulator, at entry (p, q): the sum over the 8192 contraction positions of the
    left operand's row `p` against the right operand's row `q`. -/
theorem product_apply {φ₁ φ₂ : FTy} (l : FVec Ideal S16x8192 φ₁) (r : FVec Ideal S256x8192 φ₂) (p : Fin 16) (q : Fin 256) :
    matmul dot_S16x8192_S256x8192_S16x256_1_1_0_0_n_n none l r (constant (F := Ideal) S16x256 .f32 0x00000000#32) (ix2 p q)
      = ∑ k : Fin 8192, l (ix2 p k) * r (ix2 q k) := by
  simp only [matmul]
  rw [Ideal.matmul_constant_zero_apply, ← Equiv.sum_comp (contrEquiv1 dot_S16x8192_S256x8192_S16x256_1_1_0_0_n_n 8192 rfl rfl).symm]
  refine Finset.sum_congr rfl fun k _ => ?_
  have hk := contrEquiv1_symm_val dot_S16x8192_S256x8192_S16x256_1_1_0_0_n_n 8192 rfl rfl k
  have el : dot_S16x8192_S256x8192_S16x256_1_1_0_0_n_n.lhsIdx (ix2 p q) ((contrEquiv1 dot_S16x8192_S256x8192_S16x256_1_1_0_0_n_n 8192 rfl rfl).symm k) = ix2 p k := funext fun a => Fin.ext (by
    match a with
    | ⟨0, _⟩ => exact lhs_axis0 _ _
    | ⟨1, _⟩ => exact (lhs_axis1 _ _).trans hk)
  have er : dot_S16x8192_S256x8192_S16x256_1_1_0_0_n_n.rhsIdx (ix2 p q) ((contrEquiv1 dot_S16x8192_S256x8192_S16x256_1_1_0_0_n_n 8192 rfl rfl).symm k) = ix2 q k := funext fun a => Fin.ext (by
    match a with
    | ⟨0, _⟩ => exact rhs_axis0 _ _
    | ⟨1, _⟩ => exact (rhs_axis1 _ _).trans hk)
  rw [el, er]

/-! ## The broadcasts -/

/-- A column [256, 1] broadcast along the rows of a [256, 8192] matrix: entry (q, k) reads the column's entry q. -/
theorem column_apply {α : Type} (z : S256x1.Idx → α) (q : Fin 256) (k : Fin 8192) :
    broadcastTo S256x8192 z broadcasts_S256x1_S256x8192 (ix2 q k) = z (ix2 q (0 : Fin 1)) :=
  broadcastTo_apply z broadcasts_S256x1_S256x8192 (ix2 q k) (ix2 q (0 : Fin 1)) (fun a => match a with
    | ⟨0, _⟩ => by show q.val = if (256 : Nat) = 1 then 0 else q.val; rw [if_neg (by decide)]
    | ⟨1, _⟩ => by show 0 = if (1 : Nat) = 1 then 0 else k.val; rw [if_pos rfl])

/-- A row [1, 256] broadcast down the 16 rows of a [16, 256] matrix: entry (p, q) reads the row's entry q. -/
theorem row_apply {α : Type} (s : S1x256.Idx → α) (p : Fin 16) (q : Fin 256) :
    broadcastTo S16x256 s broadcasts_S1x256_S16x256 (ix2 p q) = s (ix2 (0 : Fin 1) q) :=
  broadcastTo_apply s broadcasts_S1x256_S16x256 (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-! ## The stored value at an entry -/

/-- What one grid point stores at row `p`, column `q` of its result block, from the five blocks it loads. -/
theorem stored_apply (a : Vec Ideal S16x8192 .f32) (wq : Vec Ideal S256x8192 .i32) (z : Vec Ideal S256x1 .f32)
    (s b : Vec Ideal S1x256 .f32) (p : Fin 16) (q : Fin 256) :
    k0_pay1 (F := Ideal) a wq z s b (ix2 p q)
      = (∑ k : Fin 8192, a (ix2 p k) * (FloatOps.sitofp (F := Ideal) .f32 (wq (ix2 q k)) - z (ix2 q (0 : Fin 1))))
          * s (ix2 (0 : Fin 1) q) + b (ix2 (0 : Fin 1) q) := by
  unfold k0_pay1
  rw [addf_apply, mulf_apply, product_apply, row_apply, row_apply, shapeCast_self, shapeCast_self]
  refine congrArg (fun t => t * s (ix2 (0 : Fin 1) q) + b (ix2 (0 : Fin 1) q)) (Finset.sum_congr rfl fun k _ => ?_)
  rw [truncf_apply, truncf_apply, subf_apply, column_apply]
  rfl

end Cert.QLin.Body

end
-- ==== Proof.QLinArray.lean ====
/-
  From one grid point's block to the whole result array.

  The grid has 32 points; point `t` works on output channels 256·t … 256·t + 255. Its six windows read, of the arrays the
  region finds: the whole activation array; weight rows 256·t …; the same rows of the zero points laid out as a column
  [8192, 1]; the same columns of the scales laid out as a row [1, 8192]; the same columns of the one-row bias; and it
  writes columns 256·t … of the result. The column of zero points and the row of scales are reshapes, made before the
  region, of the flat per-channel arguments, so entry (o, 0) of the one and (0, o) of the other are the arguments' entry o.

  Hence the value point `t` stores at (p, q) is the layer function at token row p and channel 256·t + q, which is exactly
  what block `t` of the layer function holds there. The 32 blocks tile the columns (channel o lies in block o / 256), so after
  the run the result array IS the layer function of the five arguments.
-/
import proofs.«103418_j45329084842316_1_alg».proof.Proof.Gen.KernelIdeal.Value
import proofs.«103418_j45329084842316_1_alg».proof.Proof.QLinSpec
import proofs.«103418_j45329084842316_1_alg».proof.Proof.QLinBody
import Idealize.ShloMosaic.Lib.Pipeline.Value
import Idealize.ShloMosaic.Lib.StableHlo.Run

noncomputable section

open scoped BigOperators

namespace Cert.QLin.Array

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## Which block each window holds at a point -/

/-- The printed index maps over the 32 grid points: the activations stay at block (0, 0); the weight rows and the
    zero-point column move down with the point; the scale row, the bias row and the result move right with it. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val :=
  (by decide +kernel : ∀ t : Fin grid0.N, _)

theorem point_lt (t : Fin cfg0.N) : t.val < 32 := by
  have ht : t.val < grid0.N := t.isLt
  rw [N_0] at ht
  exact ht

/-- The output channel that column `q` of point `t`'s block is. -/
def chan (t : Fin cfg0.N) (q : Fin 256) : Fin 8192 :=
  ⟨t.val * 256 + q.val, by have := point_lt t; have := q.isLt; omega⟩

/-! ## The two arrays the host lays out before the region -/

/-- The zero points as a column: the flat argument reshaped to [8192, 1]. -/
theorem zp_column (c : Dev nD) : (V m c main_v0 : S8192x1.Idx → EReal)
    = shapeCast S8192x1 (m ((c : Thread nD τ).loc main_arg3)) shapeCasts_S8192_S8192x1 := by
  dsimp only [Gen.V, Gen.hostOps0]
  after_results
  rfl

/-- The scales as a row: the flat argument reshaped to [1, 8192]. -/
theorem scale_row (c : Dev nD) : (V m c main_v1 : S1x8192.Idx → EReal)
    = shapeCast S1x8192 (m ((c : Thread nD τ).loc main_arg2)) shapeCasts_S8192_S1x8192 := by
  dsimp only [Gen.V, Gen.hostOps0]
  after_results
  rfl

/-! ## Each input block read at an entry -/

/-- The activation block is the whole activation array. -/
theorem act_block (c : Dev nD) (t : Fin cfg0.N) (p : Fin 16) (k : Fin 8192) :
    iblk m c 0 t (ix2 p k) = m ((c : Thread nD τ).loc main_arg0) (ix2 p k) := by
  obtain ⟨e0, e1, -⟩ := block_index t
  unfold iblk
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 16 + 1 * p.val = p.val; omega
  | ⟨1, _⟩ => show win0_0.index t (1 : Fin 2) * 8192 + 1 * k.val = k.val; omega

/-- Row `q` of the weight block is the weight row of channel 256·t + q. -/
theorem wgt_block (c : Dev nD) (t : Fin cfg0.N) (q : Fin 256) (k : Fin 8192) :
    iblk m c 1 t (ix2 q k) = m ((c : Thread nD τ).loc main_arg1) (ix2 (chan t q) k) := by
  obtain ⟨-, -, e0, e1, -⟩ := block_index t
  unfold iblk
  show V m c main_arg1 (((cfg0.win 1).blk t).view.emb (ix2 q k)) = _
  rw [V_main_arg1]
  refine congrArg (m ((c : Thread nD τ).loc main_arg1)) (funext fun a => Fin.ext ?_)
  match a with
  | ⟨0, _⟩ => show win0_1.index t (0 : Fin 2) * 256 + 1 * q.val = t.val * 256 + q.val; omega
  | ⟨1, _⟩ => show win0_1.index t (1 : Fin 2) * 8192 + 1 * k.val = k.val; omega

/-- Entry (q, 0) of the zero-point block is the zero point of channel 256·t + q. -/
theorem zp_block (c : Dev nD) (t : Fin cfg0.N) (q : Fin 256) :
    iblk m c 2 t (ix2 q (0 : Fin 1)) = m ((c : Thread nD τ).loc main_arg3) (ix1 (chan t q)) := by
  obtain ⟨-, -, -, -, e0, e1, -⟩ := block_index t
  unfold iblk
  show V m c main_v0 (((cfg0.win 2).blk t).view.emb (ix2 q (0 : Fin 1))) = _
  rw [zp_column]
  refine shapeCast_apply _ _ _ (ix1 (chan t q)) ?_
  rw [Shape.rowMajor_val_one, Shape.rowMajor_val_two]
  show t.val * 256 + q.val = (win0_2.index t (0 : Fin 2) * 256 + 1 * q.val) * 1 + (win0_2.index t (1 : Fin 2) * 1 + 1 * 0)
  omega

/-- Entry (0, q) of the scale block is the scale of channel 256·t + q. -/
theorem scale_block (c : Dev nD) (t : Fin cfg0.N) (q : Fin 256) :
    iblk m c 3 t (ix2 (0 : Fin 1) q) = m ((c : Thread nD τ).loc main_arg2) (ix1 (chan t q)) := by
  obtain ⟨-, -, -, -, -, -, e0, e1, -⟩ := block_index t
  unfold iblk
  show V m c main_v1 (((cfg0.win 3).blk t).view.emb (ix2 (0 : Fin 1) q)) = _
  rw [scale_row]
  refine shapeCast_apply _ _ _ (ix1 (chan t q)) ?_
  rw [Shape.rowMajor_val_one, Shape.rowMajor_val_two]
  show t.val * 256 + q.val = (win0_3.index t (0 : Fin 2) * 1 + 1 * 0) * 8192 + (win0_3.index t (1 : Fin 2) * 256 + 1 * q.val)
  omega

/-- Entry (0, q) of the bias block is the bias of channel 256·t + q. -/
theorem bias_block (c : Dev nD) (t : Fin cfg0.N) (q : Fin 256) :
    iblk m c 4 t (ix2 (0 : Fin 1) q) = m ((c : Thread nD τ).loc main_arg4) (ix2 (0 : Fin 1) (chan t q)) := by
  obtain ⟨-, -, -, -, -, -, -, -, e0, e1, -⟩ := block_index t
  unfold iblk
  show V m c main_arg4 (((cfg0.win 4).blk t).view.emb (ix2 (0 : Fin 1) q)) = _
  rw [V_main_arg4]
  refine congrArg (m ((c : Thread nD τ).loc main_arg4)) (funext fun a => Fin.ext ?_)
  match a with
  | ⟨0, _⟩ => show win0_4.index t (0 : Fin 2) * 1 + 1 * 0 = 0; omega
  | ⟨1, _⟩ => show win0_4.index t (1 : Fin 2) * 256 + 1 * q.val = t.val * 256 + q.val; omega

/-! ## What a point stores, and what it writes back -/

/-- Point `t` stores at (p, q) the layer function at token row p, channel 256·t + q. -/
theorem point_entry (c : Dev nD) (t : Fin cfg0.N) (p : Fin 16) (q : Fin 256) :
    k0_pay1 (F := Ideal) (iblk m c 0 t) (iblk m c 1 t) (iblk m c 2 t) (iblk m c 3 t) (iblk m c 4 t) (ix2 p q)
      = qlinAt (m ((c : Thread nD τ).loc main_arg0)) (m ((c : Thread nD τ).loc main_arg1)) (m ((c : Thread nD τ).loc main_arg2)) (m ((c : Thread nD τ).loc main_arg3)) (m ((c : Thread nD τ).loc main_arg4)) p (chan t q) := by
  refine (Body.stored_apply (iblk m c 0 t) (iblk m c 1 t) (iblk m c 2 t) (iblk m c 3 t) (iblk m c 4 t) p q).trans ?_
  unfold qlinAt deq
  rw [zp_block m c t q, scale_block m c t q, bias_block m c t q]
  refine congrArg (fun s => s * m ((c : Thread nD τ).loc main_arg2) (ix1 (chan t q)) + m ((c : Thread nD τ).loc main_arg4) (ix2 (0 : Fin 1) (chan t q))) (Finset.sum_congr rfl fun k _ => ?_)
  rw [act_block m c t p k, wgt_block m c t q k]

/-- WHAT POINT `t` WRITES BACK is block `t` of the layer function of the five arguments. -/
theorem flushed_eq (c : Dev nD) (t : Fin cfg0.N) :
    (dats m 0 c).flushed 5 t = ((cfg0.win 5).blk t).view.read (Elt Ideal) (qlin (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KernelIdeal.Value.flushed5]
  unfold out0_5
  rw [View.canon_unit_zero origin]
  simp only [View.ld_unit_zero (S := S16x8192) origin, View.ld_unit_zero (S := S256x8192) origin,
    View.ld_unit_zero (S := S256x1) origin, View.ld_unit_zero (S := S1x256) origin]
  obtain ⟨-, -, -, -, -, -, -, -, -, -, e0, e1⟩ := block_index t
  funext j
  obtain ⟨p, q, rfl⟩ : ∃ (p : Fin 16) (q : Fin 256), j = ix2 p q := ⟨j 0, j 1, eq_ix2 j⟩
  show k0_pay1 (F := Ideal) (iblk m c 0 t) (iblk m c 1 t) (iblk m c 2 t) (iblk m c 3 t) (iblk m c 4 t) (ix2 p q)
    = qlin (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb (ix2 p q))
  have hemb : ((cfg0.win 5).blk t).view.emb (ix2 p q) = ix2 p (chan t q) := funext fun a => Fin.ext (by
    match a with
    | ⟨0, _⟩ => show win0_5.index t (0 : Fin 2) * 16 + 1 * p.val = p.val; omega
    | ⟨1, _⟩ => show win0_5.index t (1 : Fin 2) * 256 + 1 * q.val = t.val * 256 + q.val; omega)
  rw [hemb, qlin_ix2]
  exact point_entry m c t p q

/-! ## The blocks tile the result array -/

/-- An index of the result array is in point `t`'s block iff each coordinate is in the block's range on its axis. -/
theorem mem_block (t : Fin cfg0.N) (i : S16x8192.Idx) :
    i ∈ ((cfg0.win 5).blk t).view.set ↔ ∀ a : Fin 2, win0_5.index t a * S16x256.size a ≤ (i a).val ∧ (i a).val < win0_5.index t a * S16x256.size a + S16x256.size a := by
  show i ∈ ((View.whole main_v2).slice (win0_5.rect t)).set ↔ _
  rw [View.set_slice_whole, Rect.mem_set_unit]
  exact Iff.rfl

/-- Every entry (p, o) of the result array lies in the block of point o / 256, and every point writes back. -/
theorem covered (i : S16x8192.Idx) :
    ∃ t : Fin cfg0.N, (cfg0.win 5).flush t = true ∧ i ∈ ((cfg0.win 5).blk t).view.set := by
  have hi0 : (i 0).val < 16 := (i 0).isLt
  have hi1 : (i 1).val < 8192 := (i 1).isLt
  have hN : (i 1).val / 256 < grid0.N := by rw [N_0]; omega
  refine ⟨⟨(i 1).val / 256, hN⟩, flush0_5 _, ?_⟩
  obtain ⟨-, -, -, -, -, -, -, -, -, -, e0, e1⟩ := block_index ⟨(i 1).val / 256, hN⟩
  have e1' : win0_5.index ⟨(i 1).val / 256, hN⟩ (1 : Fin 2) = (i 1).val / 256 := e1
  rw [mem_block]
  intro a
  match a with
  | ⟨0, _⟩ => show win0_5.index ⟨(i 1).val / 256, hN⟩ (0 : Fin 2) * 16 ≤ (i 0).val ∧ (i 0).val < win0_5.index ⟨(i 1).val / 256, hN⟩ (0 : Fin 2) * 16 + 16; omega
  | ⟨1, _⟩ => show win0_5.index ⟨(i 1).val / 256, hN⟩ (1 : Fin 2) * 256 ≤ (i 1).val ∧ (i 1).val < win0_5.index ⟨(i 1).val / 256, hN⟩ (1 : Fin 2) * 256 + 256; omega

/-! ## The array after the run, and the run -/

/-- After the run the result array is the layer function of the five arguments. -/
theorem result_eq (c : Dev nD) : (dats m 0 c).arrAt 5 cfg0.N = qlin (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 5 (qlin (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_eq m c t) covered

/-- Every weakly fair execution of the kernel program terminates with the result array at the layer function of the
    arguments as launched, and the arguments unchanged. -/
theorem run : θ_run defs (onTc (τ := τ) (main (F := Ideal))) ⟨m, fun _ => 0, ρ⟩ fun r => ∀ c : Dev nD,
      r.2.mem ((c : Thread nD τ).loc main_v2) = qlin (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩)
    (Cert.KernelIdeal.Value.run_blocks m ρ)

end Cert.QLin.Array

end
-- ==== Proof.lean ====
/- The proof of `Cert.Claim` for a quantized linear layer with per-channel zero point, scale and bias.

   Both programs compute, at token row p (of 16) and output channel o (of 8192),

       (∑ k < 8192, x(p, k) · (float(w(o, k)) − zp(o))) · scale(o) + bias(0, o)

   (Proof/QLinSpec.lean: `qlin`). The kernel does so 256 channels at a time over a grid of 32 points, narrowing both matrix
   operands to a shorter float format first — the identity on extended reals — and contracting them into a zero accumulator
   (Proof/QLinBody.lean: one point's stored value at an entry; Proof/QLinArray.lean: the 32 blocks tile the result array, which
   therefore ends at `qlin` of the arguments). The reference shifts the whole weight matrix, contracts it with the activations
   in one product and broadcasts scale and bias (Proof/QLinRef.lean: its last stage is `qlin` of the arguments). The two sums
   have the same terms in the same order of factors, so no law of the extended reals beyond reading each operation at an
   index is used, and the finiteness of the inputs is never opened.

   The three frames are the generated ones (the reference's is its generated run with the result dropped); the
   idealization rewrote no operation, so `preserves` is `True`. -/
import proofs.«103418_j45329084842316_1_alg».proof.Defs
import proofs.«103418_j45329084842316_1_alg».proof.Proof.Gen.Kernel
import proofs.«103418_j45329084842316_1_alg».proof.Proof.Gen.Kernel.Skeleton
import proofs.«103418_j45329084842316_1_alg».proof.Proof.Gen.Kernel.Launch
import proofs.«103418_j45329084842316_1_alg».proof.Proof.Gen.Kernel.Points
import proofs.«103418_j45329084842316_1_alg».proof.Proof.Gen.Kernel.Frame
import proofs.«103418_j45329084842316_1_alg».proof.Proof.Gen.KernelIdeal
import proofs.«103418_j45329084842316_1_alg».proof.Proof.Gen.KernelIdeal.Skeleton
import proofs.«103418_j45329084842316_1_alg».proof.Proof.Gen.KernelIdeal.Launch
import proofs.«103418_j45329084842316_1_alg».proof.Proof.Gen.KernelIdeal.Points
import proofs.«103418_j45329084842316_1_alg».proof.Proof.Gen.KernelIdeal.Frame
import proofs.«103418_j45329084842316_1_alg».proof.Proof.Gen.ReferenceIdeal
import proofs.«103418_j45329084842316_1_alg».proof.Proof.Gen.Pre_finite_inputs
import proofs.«103418_j45329084842316_1_alg».proof.Proof.Gen.KernelIdeal.Value
import proofs.«103418_j45329084842316_1_alg».proof.Proof.Gen.ReferenceIdeal.Run
import proofs.«103418_j45329084842316_1_alg».proof.Proof.Gen.ReferenceIdeal.Read
import proofs.«103418_j45329084842316_1_alg».proof.Proof.QLinSpec
import proofs.«103418_j45329084842316_1_alg».proof.Proof.QLinRef
import proofs.«103418_j45329084842316_1_alg».proof.Proof.QLinArray
import Idealize.ShloMosaic.Adequacy
import Idealize.ShloMosaic.Init

noncomputable section

namespace Cert.Proof

open Idealize.ShloMosaic Idealize.ShloMosaic.TcCoe Idealize.SL.Sem

/-- The word-level kernel runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the five arguments, both programs end with the result array at the layer function
    `qlin` of those arguments. -/
theorem algebraic : Cert.algebraic_KernelIdeal_ReferenceIdeal := by
  intro m ρ m' ρ' _ hagree
  refine ⟨fun c => Cert.QLin.qlin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.QLin.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v9_eq, Cert.QLin.Ref.result_eq, h0, h1, h2, h3, h4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
